-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩

class Facts : Prop where
  bcast_S_S50000x640 : S_.BroadcastsInDim S50000x640 (![] : Fin 0 → Fin S50000x640.rank)
  reducesTo_S50000x640_S_d0_1 : S50000x640.ReducesTo [0, 1] S_
  h_S_ : 0 < S_.numel
  bcast_S_S512x327680 : S_.BroadcastsInDim S512x327680 (![] : Fin 0 → Fin S512x327680.rank)
  reducesTo_S512x327680_S_d0_1 : S512x327680.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S512 .f32) (main_arg7 : FVec F S2x512 .f32) (main_arg8 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2x512 .f32 := Host.absf main_arg7
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S256x512 32) (main_arg1 : IVec S256x512 32) (main_arg2 : FVec F S50000x640 .f32) (main_arg3 : FVec F S512x327680 .f32) (main_arg4 : FVec F S512 .f32) (main_arg5 : FVec F S512x512 .f32) (main_arg6 : FVec F S512 .f32) (main_arg7 : FVec F S2x512 .f32) (main_arg8 : FVec F S2 .f32) : IVec S_ 1 :=
  let main_v0 : FVec F S50000x640 .f32 := Host.absf main_arg2
  let main_cst : FVec F S_ .f32 := constant S_ .f32 0x7F800000#32
  let main_v1 : FVec F S50000x640 .f32 := broadcastInDim S50000x640 ![] bcast_S_S50000x640 main_cst
  let main_v2 : IVec S50000x640 1 := cmpf .olt main_v0 main_v1
  let main_c : IVec S_ 1 := constantI S_ 1 1#1
  let main_v3 : IVec S_ 1 := (fun x v => Host.reduce IntOp.andi x v reducesTo_S50000x640_S_d0_1 h_S_) main_v2 main_c
  let main_v4 : FVec F S512x327680 .f32 := Host.absf main_arg3
  let main_cst_0 : FVec F S_ .f32 := constant S_ .f32 0x7F800000#32
  let main_v5 : FVec F S512x327680 .f32 := broadcastInDim S512x327680 ![] bcast_S_S512x327680 main_cst_0
  let main_v6 : IVec S512x327680 1 := cmpf .olt main_v4 main_v5
  let main_c_1 : IVec S_ 1 := constantI S_ 1 1#1
  let main_v7 : IVec S_ 1 := (fun x v => Host.reduce IntOp.andi x v reducesTo_S512x327680_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩
abbrev S256x512x1 : Shape := ⟨3, ![256, 512, 1]⟩
abbrev S256x512x640 : Shape := ⟨3, ![256, 512, 640]⟩
abbrev S256x327680 : Shape := ⟨2, ![256, 327680]⟩
abbrev S256x2 : Shape := ⟨2, ![256, 2]⟩
abbrev S128x8192 : Shape := ⟨2, ![128, 8192]⟩
abbrev S512x8192 : Shape := ⟨2, ![512, 8192]⟩
abbrev S128x2 : Shape := ⟨2, ![128, 2]⟩
abbrev S128x512 : Shape := ⟨2, ![128, 512]⟩
abbrev S8192x512 : Shape := ⟨2, ![8192, 512]⟩
abbrev S1x512 : Shape := ⟨2, ![1, 512]⟩
abbrev S512x2 : Shape := ⟨2, ![512, 2]⟩
abbrev S1x2 : Shape := ⟨2, ![1, 2]⟩

abbrev nBuf : Space → Nat
  | .hbm => 29
  | .vmem => 12
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S50000x640, .f32⟩
  | .hbm, ⟨3, _⟩ => ⟨S512x327680, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S256x512, .i32⟩
  | .hbm, ⟨10, _⟩ => ⟨S_, .i32⟩
  | .hbm, ⟨11, _⟩ => ⟨S256x512, .i32⟩
  | .hbm, ⟨12, _⟩ => ⟨S256x512, .i1⟩
  | .hbm, ⟨13, _⟩ => ⟨S_, .i32⟩
  | .hbm, ⟨14, _⟩ => ⟨S256x512, .i32⟩
  | .hbm, ⟨15, _⟩ => ⟨S256x512, .i32⟩
  | .hbm, ⟨16, _⟩ => ⟨S256x512, .i32⟩
  | .hbm, ⟨17, _⟩ => ⟨S256x512x1, .i32⟩
  | .hbm, ⟨18, _⟩ => ⟨S256x512x640, .f32⟩
  | .hbm, ⟨19, _⟩ => ⟨S256x512x1, .i32⟩
  | .hbm, ⟨20, _⟩ => ⟨S256x512x1, .f32⟩
  | .hbm, ⟨21, _⟩ => ⟨S256x512x640, .f32⟩
  | .hbm, ⟨22, _⟩ => ⟨S256x512x640, .f32⟩
  | .hbm, ⟨23, _⟩ => ⟨S256x327680, .f32⟩
  | .hbm, ⟨24, _⟩ => ⟨S256x327680, .bf16⟩
  | .hbm, ⟨25, _⟩ => ⟨S512x327680, .bf16⟩
  | .hbm, ⟨26, _⟩ => ⟨S512x512, .bf16⟩
  | .hbm, ⟨27, _⟩ => ⟨S2x512, .bf16⟩
  | .hbm, ⟨28, _⟩ => ⟨S256x2, .f32⟩
  | .local _ .vmem, ⟨0, _⟩ => ⟨S128x8192, .bf16⟩
  | .local _ .vmem, ⟨1, _⟩ => ⟨S128x8192, .bf16⟩
  | .local _ .vmem, ⟨2, _⟩ => ⟨S512x8192, .bf16⟩
  | .local _ .vmem, ⟨3, _⟩ => ⟨S512x8192, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S2x512, .bf16⟩
  | .local _ .vmem, ⟨8, _⟩ => ⟨S2, .f32⟩
  | .local _ .vmem, ⟨9, _⟩ => ⟨S128x2, .f32⟩
  | .local _ .vmem, ⟨10, _⟩ => ⟨S128x2, .f32⟩
  | .local _ .vmem, ⟨11, _⟩ => ⟨S128x512, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 40], ![false, false]⟩

def k0_cond2 (i : grid0.Coords) : BitVec 1 :=
  let arg1 : BitVec 32 := BitVec.ofNat 32 (i 1).val
  let c39_i32 : BitVec 32 := 39#32
  let v14 : BitVec 1 := Scalar.cmpi .eq arg1 c39_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x640_0_1_2 : S256x512x1.BroadcastsInDim S256x512x640 (![0, 1, 2] : Fin 3 → Fin S256x512x640.rank)
  shapeCasts_S256x512x640_S256x327680 : S256x512x640.ShapeCasts S256x327680
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  transposes_S512x8192_p1_0_S8192x512 : S512x8192.Transposes [1, 0] S8192x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  transposes_S2x512_p1_0_S512x2 : S2x512.Transposes [1, 0] S512x2
  inb_S2_S2_0 : ∀ a, (![0] : Fin 1 → Nat) a + S2.size a ≤ S2.size a
  h_S2 : 0 < S2.numel
  shapeCasts_S2_S1x2 : S2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  gather_S50000x640_S256x512x1_S256x512x640_2_0_n_n_0_2_1640_wf : GatherDims.WF S50000x640 S256x512x1 S256x512x640 [2] [0] [] [0] [] 2 ![1, 640]
  dot_S128x8192_S8192x512_S128x512_1_0_0_1_n_n_wf : DotDims.WF S128x8192 S8192x512 S128x512 [1] [0] [0] [1] [] []
  dot_S128x512_S512x512_S128x512_1_0_0_1_n_n_wf : DotDims.WF S128x512 S512x512 S128x512 [1] [0] [0] [1] [] []
  dot_S128x512_S512x2_S128x2_1_0_0_1_n_n_wf : DotDims.WF S128x512 S512x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S256x327680.size a
  hwx0_0 : ∀ i : grid0.Coords, EltTy.bits .bf16 = 32 ∨ (Rect.block (s := S256x327680) S128x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S512x327680.size a
  hwx0_1 : ∀ i : grid0.Coords, EltTy.bits .bf16 = 32 ∨ (Rect.block (s := S512x327680) S512x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512.size a ≤ S2x512.size a
  hwx0_5 : ∀ i : grid0.Coords, EltTy.bits .bf16 = 32 ∨ (Rect.block (s := S2x512) S2x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S256x2.size a
  hwx0_7 : ∀ i : grid0.Coords, EltTy.bits .f32 = 32 ∨ (Rect.block (s := S256x2) S128x2.size (cc0_transform_7 i) (hinb0_7 i)).WholeWords (EltTy.packing .f32)

variable [Facts₀]

def gather_S50000x640_S256x512x1_S256x512x640_2_0_n_n_0_2_1640 : GatherDims S50000x640 S256x512x1 S256x512x640 where
  offsetDims := [2]
  collapsedSliceDims := [0]
  operandBatchingDims := []
  startIndicesBatchingDims := []
  startIndexMap := [0]
  indexVectorDim := 2
  sliceSizes := ![1, 640]
  wf := gather_S50000x640_S256x512x1_S256x512x640_2_0_n_n_0_2_1640_wf
def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x2_S128x2_1_0_0_1_n_n : DotDims S128x512 S512x2 S128x2 where
  lhsContracting := [1]
  rhsContracting := [0]
  lhsNonContracting := [0]
  rhsNonContracting := [1]
  lhsBatch := []
  rhsBatch := []
  wf := dot_S128x512_S512x2_S128x2_1_0_0_1_n_n_wf

abbrev win0_0 : Pipeline.Window sig grid0 :=
  Pipeline.Window.ofSpec (Memref.whole main_v13) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩
abbrev S256x512x1 : Shape := ⟨3, ![256, 512, 1]⟩
abbrev S256x512x640 : Shape := ⟨3, ![256, 512, 640]⟩
abbrev S256x327680 : Shape := ⟨2, ![256, 327680]⟩
abbrev S327680x512 : Shape := ⟨2, ![327680, 512]⟩
abbrev S1x512 : Shape := ⟨2, ![1, 512]⟩
abbrev S512x2 : Shape := ⟨2, ![512, 2]⟩
abbrev S256x2 : Shape := ⟨2, ![256, 2]⟩
abbrev S1x2 : Shape := ⟨2, ![1, 2]⟩

abbrev nBuf : Space → Nat
  | .hbm => 45
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S50000x640, .f32⟩
  | .hbm, ⟨3, _⟩ => ⟨S512x327680, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S256x512, .i32⟩
  | .hbm, ⟨10, _⟩ => ⟨S_, .i32⟩
  | .hbm, ⟨11, _⟩ => ⟨S256x512, .i32⟩
  | .hbm, ⟨12, _⟩ => ⟨S256x512, .i1⟩
  | .hbm, ⟨13, _⟩ => ⟨S_, .i32⟩
  | .hbm, ⟨14, _⟩ => ⟨S256x512, .i32⟩
  | .hbm, ⟨15, _⟩ => ⟨S256x512, .i32⟩
  | .hbm, ⟨16, _⟩ => ⟨S256x512, .i32⟩
  | .hbm, ⟨17, _⟩ => ⟨S256x512x1, .i32⟩
  | .hbm, ⟨18, _⟩ => ⟨S256x512x640, .f32⟩
  | .hbm, ⟨19, _⟩ => ⟨S256x512x1, .i32⟩
  | .hbm, ⟨20, _⟩ => ⟨S256x512x1, .f32⟩
  | .hbm, ⟨21, _⟩ => ⟨S256x512x640, .f32⟩
  | .hbm, ⟨22, _⟩ => ⟨S256x512x640, .f32⟩
  | .hbm, ⟨23, _⟩ => ⟨S256x327680, .f32⟩
  | .hbm, ⟨24, _⟩ => ⟨S327680x512, .f32⟩
  | .hbm, ⟨25, _⟩ => ⟨S256x512, .f32⟩
  | .hbm, ⟨26, _⟩ => ⟨S1x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S512x512, .f32⟩
  | .hbm, ⟨33, _⟩ => ⟨S256x512, .f32⟩
  | .hbm, ⟨34, _⟩ => ⟨S1x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | .hbm, ⟨40, _⟩ => ⟨S512x2, .f32⟩
  | .hbm, ⟨41, _⟩ => ⟨S256x2, .f32⟩
  | .hbm, ⟨42, _⟩ => ⟨S1x2, .f32⟩
  | .hbm, ⟨43, _⟩ => ⟨S256x2, .f32⟩
  | .hbm, ⟨44, _⟩ => ⟨S256x2, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x640_0_1_2 : S256x512x1.BroadcastsInDim S256x512x640 (![0, 1, 2] : Fin 3 → Fin S256x512x640.rank)
  shapeCasts_S256x512x640_S256x327680 : S256x512x640.ShapeCasts S256x327680
  transposes_S512x327680_S327680x512_1_0 : S512x327680.Transposes [1, 0] S327680x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  transposes_S512x512_S512x512_1_0 : S512x512.Transposes [1, 0] S512x512
  transposes_S2x512_S512x2_1_0 : S2x512.Transposes [1, 0] S512x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S50000x640_S256x512x1_S256x512x640_2_0_n_n_0_2_1640_wf : GatherDims.WF S50000x640 S256x512x1 S256x512x640 [2] [0] [] [0] [] 2 ![1, 640]
  dot_S256x327680_S327680x512_S256x512_1_0_0_1_n_n_wf : DotDims.WF S256x327680 S327680x512 S256x512 [1] [0] [0] [1] [] []
  dot_S256x512_S512x512_S256x512_1_0_0_1_n_n_wf : DotDims.WF S256x512 S512x512 S256x512 [1] [0] [0] [1] [] []
  dot_S256x512_S512x2_S256x2_1_0_0_1_n_n_wf : DotDims.WF S256x512 S512x2 S256x2 [1] [0] [0] [1] [] []

variable [Facts₀]

def gather_S50000x640_S256x512x1_S256x512x640_2_0_n_n_0_2_1640 : GatherDims S50000x640 S256x512x1 S256x512x640 where
  offsetDims := [2]
  collapsedSliceDims := [0]
  operandBatchingDims := []
  startIndicesBatchingDims := []
  startIndexMap := [0]
  indexVectorDim := 2
  sliceSizes := ![1, 640]
  wf := gather_S50000x640_S256x512x1_S256x512x640_2_0_n_n_0_2_1640_wf
def dot_S256x327680_S327680x512_S256x512_1_0_0_1_n_n : DotDims S256x327680 S327680x512 S256x512 where
  lhsContracting := [1]
  rhsContracting := [0]
  lhsNonContracting := [0]
  rhsNonContracting := [1]
  lhsBatch := []
  rhsBatch := []
  wf := dot_S256x327680_S327680x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x2_S256x2_1_0_0_1_n_n : DotDims S256x512 S512x2 S256x2 where
  lhsContracting := [1]
  rhsContracting := [0]
  lhsNonContracting := [0]
  rhsNonContracting := [1]
  lhsBatch := []
  rhsBatch := []
  wf := dot_S256x512_S512x2_S256x2_1_0_0_1_n_n_wf

class Facts : Prop extends Facts₀ where

variable [Facts]
-- ==== Proof.BodyStores.lean ====
/-
  What one run of the kernel body leaves behind, as values of what it found.

  The body keeps a 128 × 512 accumulator between grid steps. At the first step of a row tile it stores the
  zero block, reads it back and stores "that plus this step's tile product"; at every later step it stores
  "what the step before left plus this step's tile product"; and at the last step it also stores, into the
  output tile, the rest of the network applied to the accumulator it has just written. Each statement
  below reads the stores of one case back as one value: every store covers its whole buffer, so what the
  buffer holds afterwards is the last stored value, and a load after a covering store reads that value.
-/
import proofs.«167763_j2130303779207_1_alg».proof.Proof.Gen.KernelIdeal.Frame
import Idealize.ShloMosaic.Lib.Pipeline.Value
import Idealize.ShloMosaic.Lib.Tactic

noncomputable section

namespace Cert.KernelIdeal.BodyStores

open Cert.KernelIdeal Cert.KernelIdeal.Gen Idealize.ShloMosaic Idealize.ShloMosaic.TcCoe Idealize.SL.Sem

variable {F : FTy → Type} [FloatOps F]

/-- Whole-buffer accesses start at the origin, on one axis and on two. -/
theorem origin1 : (![0] : Fin 1 → Nat) = fun _ => 0 := funext fun a => by fin_cases a; rfl
theorem origin2 : (![0, 0] : Fin 2 → Nat) = fun _ => 0 := funext fun a => by fin_cases a <;> rfl

/-- First step of a row tile: the accumulator ends at (zero block) + (tile product). -/
theorem scratch_first (c : Dev nD) (i : grid0.Coords) (arg2 : Memref sig .tc .vmem S128x8192 .bf16) (harg2 : arg2.IsWhole) (arg3 : Memref sig .tc .vmem S512x8192 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S2x512 .bf16) (harg7 : arg7.IsWhole) (arg8 : Memref sig .tc .vmem S2 .f32) (harg8 : arg8.IsWhole) (arg9 : Memref sig .tc .vmem S128x2 .f32) (harg9 : arg9.IsWhole) (arg10 : Memref sig .tc .vmem S128x512 .f32) (harg10 : arg10.IsWhole) (hc0 : cond0_0 i) (hc1 : ¬cond0_1 i) (x0 : Vec F S128x8192 .bf16) (x1 : Vec F S512x8192 .bf16) (x2 : Vec F S512 .f32) (x3 : Vec F S512x512 .bf16) (x4 : Vec F S512 .f32) (x5 : Vec F S2x512 .bf16) (x6 : Vec F S2 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x512) origin2, View.readCov_unit_zero (S := S128x512) _ origin2]
  simp only [View.readAt_eq_ld, harg2.read_unread, harg3.read_unread, View.ld_unit_zero (S := S128x8192) origin2,
    View.ld_unit_zero (S := S512x8192) origin2]

/-- A middle step: the accumulator ends at (what the step before left) + (tile product). -/
theorem scratch_middle (c : Dev nD) (i : grid0.Coords) (arg2 : Memref sig .tc .vmem S128x8192 .bf16) (harg2 : arg2.IsWhole) (arg3 : Memref sig .tc .vmem S512x8192 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S2x512 .bf16) (harg7 : arg7.IsWhole) (arg8 : Memref sig .tc .vmem S2 .f32) (harg8 : arg8.IsWhole) (arg9 : Memref sig .tc .vmem S128x2 .f32) (harg9 : arg9.IsWhole) (arg10 : Memref sig .tc .vmem S128x512 .f32) (harg10 : arg10.IsWhole) (hc0 : ¬cond0_0 i) (hc1 : ¬cond0_1 i) (x0 : Vec F S128x8192 .bf16) (x1 : Vec F S512x8192 .bf16) (x2 : Vec F S512 .f32) (x3 : Vec F S512x512 .bf16) (x4 : Vec F S512 .f32) (x5 : Vec F S2x512 .bf16) (x6 : Vec F S2 .f32) (xs0 : Vec F S128x512 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero origin2]
  simp only [View.readAt_eq_ld, harg2.read_unread, harg3.read_unread, harg10.read_unread,
    View.ld_unit_zero (S := S128x8192) origin2, View.ld_unit_zero (S := S512x8192) origin2,
    View.ld_unit_zero (S := S128x512) origin2]

/-- The last step: the accumulator, as at a middle step. -/
theorem scratch_last (c : Dev nD) (i : grid0.Coords) (arg2 : Memref sig .tc .vmem S128x8192 .bf16) (harg2 : arg2.IsWhole) (arg3 : Memref sig .tc .vmem S512x8192 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S2x512 .bf16) (harg7 : arg7.IsWhole) (arg8 : Memref sig .tc .vmem S2 .f32) (harg8 : arg8.IsWhole) (arg9 : Memref sig .tc .vmem S128x2 .f32) (harg9 : arg9.IsWhole) (arg10 : Memref sig .tc .vmem S128x512 .f32) (harg10 : arg10.IsWhole) (hc0 : ¬cond0_0 i) (hc1 : cond0_1 i) (x0 : Vec F S128x8192 .bf16) (x1 : Vec F S512x8192 .bf16) (x2 : Vec F S512 .f32) (x3 : Vec F S512x512 .bf16) (x4 : Vec F S512 .f32) (x5 : Vec F S2x512 .bf16) (x6 : Vec F S2 .f32) (xs0 : Vec F S128x512 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin2]
  simp only [View.readAt_eq_ld, harg2.read_unread, harg3.read_unread, harg10.read_unread,
    View.ld_unit_zero (S := S128x8192) origin2, View.ld_unit_zero (S := S512x8192) origin2,
    View.ld_unit_zero (S := S128x512) origin2]

/-- The last step: the output tile is the rest of the network applied to the accumulator just written. -/
theorem output_last (c : Dev nD) (i : grid0.Coords) (arg2 : Memref sig .tc .vmem S128x8192 .bf16) (harg2 : arg2.IsWhole) (arg3 : Memref sig .tc .vmem S512x8192 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S2x512 .bf16) (harg7 : arg7.IsWhole) (arg8 : Memref sig .tc .vmem S2 .f32) (harg8 : arg8.IsWhole) (arg9 : Memref sig .tc .vmem S128x2 .f32) (harg9 : arg9.IsWhole) (arg10 : Memref sig .tc .vmem S128x512 .f32) (harg10 : arg10.IsWhole) (hc0 : ¬cond0_0 i) (hc1 : cond0_1 i) (x0 : Vec F S128x8192 .bf16) (x1 : Vec F S512x8192 .bf16) (x2 : Vec F S512 .f32) (x3 : Vec F S512x512 .bf16) (x4 : Vec F S512 .f32) (x5 : Vec F S2x512 .bf16) (x6 : Vec F S2 .f32) (xs0 : Vec F S128x512 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 xs0 x0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin2]
  simp only [View.readAt_eq_ld, harg2.read_unread, harg3.read_unread, harg4.read_unread, harg5.read_unread,
    harg6.read_unread, harg7.read_unread, harg8.read_unread, harg10.read_unread,
    View.readCov_unit_zero (S := S128x512) _ origin2,
    View.ld_unit_zero (S := S128x8192) origin2, View.ld_unit_zero (S := S512x8192) origin2,
    View.ld_unit_zero (S := S128x512) origin2, View.ld_unit_zero (S := S512x512) origin2,
    View.ld_unit_zero (S := S2x512) origin2, View.ld_unit_zero (S := S512) origin1, View.ld_unit_zero (S := S2) origin1]

end Cert.KernelIdeal.BodyStores

end
-- ==== Proof.Perceptron.lean ====
/-
  The function both programs compute, written once over the extended reals, one row at a time.

  A token-embedding row `v` (327680 entries) goes through two dense layers with a clamp at zero and then a
  linear head:
    h1[i] = max (Σ_k v[k] · W1[i, k] + b1[i]) 0        (i < 512,  k < 327680)
    h2[j] = max (Σ_i h1[i] · W2[j, i] + b2[j]) 0        (j < 512)
    logits[c] = Σ_j h2[j] · Wp[c, j] + bp[c]            (c < 2)
  Every weight matrix is stored with the OUTPUT feature as its row, so each layer contracts the second
  axis of its weight. The rows of the input matrix do not interact: the network is applied to each of the
  256 rows separately, which is why a tiling of the rows changes nothing.

  The one algebraic fact needed besides this definition: a sum over 327680 = 40 · 8192 consecutive
  indices is the sum, over the 40 consecutive stretches of length 8192, of each stretch's sum. Addition
  on the extended reals is commutative and associative (no cancellation is used), so this holds with no
  finiteness assumption.
-/
import Idealize.ShloMosaic.PureOps.Ideal.Laws
import Idealize.ShloMosaic.Lib.ValueIdx

noncomputable section

open scoped BigOperators

namespace Cert.Perceptron

open Idealize.ShloMosaic Idealize.ShloMosaic.ValueIdx

/-- The float zero the layers clamp at: the word `0x00000000`, never evaluated (both programs spell it the same). -/
abbrev zeroWord : EReal := Ideal.ofBits .f32 0x00000000#32

/-- The clamp at zero. -/
def relu (a : EReal) : EReal := max a zeroWord

/-- One unit `o` of a dense layer: the input vector against row `o` of the weights, plus the bias. -/
def dense {K N : Nat} (v : Fin K → EReal) (w : FVec Ideal ⟨2, ![N, K]⟩ .f32) (b : FVec Ideal ⟨1, ![N]⟩ .f32)
    (o : Fin N) : EReal :=
  (∑ k : Fin K, v k * w (ix2 o k)) + b (ix1 o)

/-- Everything after the first layer's contraction, for one row: given the 512 sums `s[i] = Σ_k v[k] · W1[i, k]`,
    add the first bias and clamp, apply the second layer and clamp, apply the head. -/
def tail (s : Fin 512 → EReal) (b1 : FVec Ideal ⟨1, ![512]⟩ .f32) (w2 : FVec Ideal ⟨2, ![512, 512]⟩ .f32)
    (b2 : FVec Ideal ⟨1, ![512]⟩ .f32) (wp : FVec Ideal ⟨2, ![2, 512]⟩ .f32) (bp : FVec Ideal ⟨1, ![2]⟩ .f32)
    (c : Fin 2) : EReal :=
  dense (fun j => relu (dense (fun i => relu (s i + b1 (ix1 i))) w2 b2 j)) wp bp c

/-- The whole network as one array of 256 × 2 logits: row `o 0` of `x` through the three layers, unit `o 1`. -/
def logits (x : FVec Ideal ⟨2, ![256, 327680]⟩ .f32) (w1 : FVec Ideal ⟨2, ![512, 327680]⟩ .f32)
    (b1 : FVec Ideal ⟨1, ![512]⟩ .f32) (w2 : FVec Ideal ⟨2, ![512, 512]⟩ .f32) (b2 : FVec Ideal ⟨1, ![512]⟩ .f32)
    (wp : FVec Ideal ⟨2, ![2, 512]⟩ .f32) (bp : FVec Ideal ⟨1, ![2]⟩ .f32) : FVec Ideal ⟨2, ![256, 2]⟩ .f32 :=
  fun o => tail (fun i => ∑ k : Fin 327680, x (ix2 (o 0) k) * w1 (ix2 i k)) b1 w2 b2 wp bp (o 1)

/-- Position `q` of stretch `s` among 40 stretches of 8192. -/
abbrev at8192 (s : Fin 40) (q : Fin 8192) : Fin 327680 := ⟨8192 * s.val + q.val, by omega⟩

/-- A sum over 327680 consecutive indices, cut into its 40 stretches of 8192. -/
theorem sum_stretches {M : Type*} [AddCommMonoid M] (f : Fin 327680 → M) :
    ∑ k : Fin 327680, f k = ∑ s : Fin 40, ∑ q : Fin 8192, f (at8192 s q) := by
  rw [← Finset.sum_product', Finset.univ_product_univ]
  refine (Fintype.sum_equiv (finProdFinEquiv (m := 40) (n := 8192)) _ _ fun p => ?_).symm
  refine congrArg f (Fin.ext ?_)
  show 8192 * p.1.val + p.2.val = p.2.val + 8192 * p.1.val
  omega

end Cert.Perceptron

end
-- ==== Proof.LibMatmulPlain.lean ====
/-
  A plain matrix product read at an entry, at the exact (extended-real) float values.

  For the dimension numbers of an [M, K] by [K, N] product with no batch axis (the left operand contracted
  on its last axis, the right on its first), a matrix-unit product into a zero accumulator is, at entry
  (a, b), the sum over k of lhs[a, k] · rhs[k, b]. The contraction index of such a product is its single
  coordinate k, and the two operand indices at (a, b) and k are (a, k) and (k, b).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable (M K N : Nat)

/-- Left operand index, row axis: the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Left operand index, column axis: the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Right operand index, row axis: the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Right operand index, column axis: the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product into a zero accumulator at entry (a, b): Σ_k lhs[a, k] · rhs[k, b]. -/
theorem matmul_zero_apply {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul (DotDims.plain M K N) prec lhs rhs (constant ⟨2, ![M, N]⟩ .f32 0x00000000#32) (ix2 a b)
      = ∑ k : Fin K, lhs (ix2 a k) * rhs (ix2 k b) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun x => Fin.ext (by
      match x with
      | ⟨0, _⟩ => exact lhs_row M K N _ _
      | ⟨1, _⟩ => exact (lhs_col M K N _ _).trans hk)
  have er : (DotDims.plain M K N).rhsIdx (ix2 a b) ((contrEquiv1 (DotDims.plain M K N) K rfl rfl).symm k) = ix2 k b :=
    funext fun x => Fin.ext (by
      match x with
      | ⟨0, _⟩ => exact (rhs_row M K N _ _).trans hk
      | ⟨1, _⟩ => exact rhs_col M K N _ _)
  rw [el, er]

end Idealize.ShloMosaic.MatmulPlain

end
-- ==== Proof.TilePayloads.lean ====
/-
  The kernel body's three stored values, read at one entry over the extended reals.

  The body works on a tile of 128 rows. Its accumulator (128 × 512) is first set to zero; at every step of
  the contraction it gains, at entry (r, i), the product of row `r` of the current 128 × 8192 tile of the
  input against row `i` of the current 512 × 8192 tile of the first weight matrix (the weight tile is
  transposed before the matrix product, so both are contracted along their 8192 axis); and at the last
  step the rest of the network — first bias and clamp, second layer and clamp, head — is applied to the
  finished accumulator, row by row. Changes of float format are the identity on the extended reals.
-/
import proofs.«167763_j2130303779207_1_alg».proof.Proof.Gen.KernelIdeal.Skeleton
import proofs.«167763_j2130303779207_1_alg».proof.Proof.Perceptron
import proofs.«167763_j2130303779207_1_alg».proof.Proof.LibMatmulPlain
import Idealize.ShloMosaic.Lib.ValueLayout

noncomputable section

open scoped BigOperators

namespace Cert.KernelIdeal.TileValue

open Cert.KernelIdeal Cert.KernelIdeal.Gen Idealize.ShloMosaic Idealize.ShloMosaic.ValueIdx Cert.Perceptron

/-- Each of the body's three matrix products is a plain rows-by-columns product with no batch axis. -/
theorem dot1_plain : dot_S128x8192_S8192x512_S128x512_1_0_0_1_n_n = DotDims.plain 128 8192 512 := rfl
theorem dot2_plain : dot_S128x512_S512x512_S128x512_1_0_0_1_n_n = DotDims.plain 128 512 512 := rfl
theorem dot3_plain : dot_S128x512_S512x2_S128x2_1_0_0_1_n_n = DotDims.plain 128 512 2 := rfl

/-- The body transposes each weight tile before its product: entry (k, i) of the transpose is entry (i, k). -/
theorem w1T_apply (w : FVec Ideal S512x8192 .bf16) (k : Fin 8192) (i : Fin 512) :
    transpose S8192x512 [1, 0] w transposes_S512x8192_p1_0_S8192x512 (ix2 k i) = w (ix2 i k) :=
  transpose_apply _ w _ _ _ fun a => match a with | ⟨0, _⟩ => rfl | ⟨1, _⟩ => rfl
theorem w2T_apply (w : FVec Ideal S512x512 .bf16) (k : Fin 512) (i : Fin 512) :
    transpose S512x512 [1, 0] w transposes_S512x512_p1_0_S512x512 (ix2 k i) = w (ix2 i k) :=
  transpose_apply _ w _ _ _ fun a => match a with | ⟨0, _⟩ => rfl | ⟨1, _⟩ => rfl
theorem wpT_apply (w : FVec Ideal S2x512 .bf16) (k : Fin 512) (i : Fin 2) :
    transpose S512x2 [1, 0] w transposes_S2x512_p1_0_S512x2 (ix2 k i) = w (ix2 i k) :=
  transpose_apply _ w _ _ _ fun a => match a with | ⟨0, _⟩ => rfl | ⟨1, _⟩ => rfl

/-- The value the accumulator is reset to is zero at every entry. -/
theorem reset_apply (j : S128x512.Idx) : k0_pay1 (F := Ideal) j = 0 := by
  unfold k0_pay1
  simp only [shapeCast_self, broadcast_apply]
  exact Ideal.ofBits_zero_f32

/-- One contraction step at entry (r, i): the accumulator there plus the tile product
    Σ_q x[r, q] · w[i, q] over the 8192 positions of the current stretch. -/
theorem accumulate_apply (acc : Vec Ideal S128x512 .f32) (xb : Vec Ideal S128x8192 .bf16) (wb : Vec Ideal S512x8192 .bf16)
    (r : Fin 128) (i : Fin 512) :
    k0_pay2 (F := Ideal) acc xb wb (ix2 r i) = acc (ix2 r i) + ∑ q : Fin 8192, xb (ix2 r q) * wb (ix2 i q) := by
  unfold k0_pay2
  simp only [shapeCast_self, addf_apply, matmul, dot1_plain, MatmulPlain.matmul_zero_apply]
  exact congrArg (acc (ix2 r i) + ·) (Finset.sum_congr rfl fun q _ => congrArg (xb (ix2 r q) * ·) (w1T_apply wb q i))

/-- The last step at entry (r, c): the rest of the network applied to row `r` of the finished accumulator. -/
theorem finish_apply (acc : Vec Ideal S128x512 .f32) (b1 : Vec Ideal S512 .f32) (w2 : Vec Ideal S512x512 .bf16)
    (b2 : Vec Ideal S512 .f32) (wp : Vec Ideal S2x512 .bf16) (bp : Vec Ideal S2 .f32) (r : Fin 128) (c : Fin 2) :
    k0_pay3 (F := Ideal) acc b1 w2 b2 wp bp (ix2 r c) = tail (fun i => acc (ix2 r i)) b1 w2 b2 wp bp c := by
  unfold k0_pay3 tail dense relu
  simp only [shapeCast_self, addf_apply, maximumf_apply, truncf_apply, broadcast_apply, matmul, dot2_plain, dot3_plain,
    MatmulPlain.matmul_zero_apply, broadcastTo_1b_ab_apply, shapeCast_a_1a_apply]
  refine congrArg (· + bp (ix1 c)) (Finset.sum_congr rfl fun j _ => ?_)
  refine congrArg₂ (· * ·) ?_ (wpT_apply wp j c)
  refine congrArg (max · zeroWord) ?_
  refine congrArg (· + b2 (ix1 j)) (Finset.sum_congr rfl fun i _ => ?_)
  exact congrArg (max (acc (ix2 r i) + b1 (ix1 i)) zeroWord * ·) (w2T_apply w2 i j)

end Cert.KernelIdeal.TileValue

end
-- ==== Proof.Accumulator.lean ====
/-
  The accumulator after any grid step, as a sum of tile products.

  The grid has 2 row tiles and, for each, 40 contraction steps; the steps are visited in the order
  t = 40 · (row tile) + (contraction step). Write P(t) for the tile product of step t: at entry (r, i),
  Σ_q x_t[r, q] · w_t[i, q] over the 8192 positions of that step's stretch. The accumulator is reset at the
  steps t ≡ 0 (mod 40) and gains P(t) at every step, so after step t it holds
      0 + Σ_{s ≤ t mod 40} P(40 · ⌊t / 40⌋ + s).
-/
import proofs.«167763_j2130303779207_1_alg».proof.Proof.Gen.KernelIdeal.Value
import proofs.«167763_j2130303779207_1_alg».proof.Proof.BodyStores
import proofs.«167763_j2130303779207_1_alg».proof.Proof.TilePayloads

noncomputable section

open scoped BigOperators

namespace Cert.KernelIdeal.Accumulator

open Cert.KernelIdeal Cert.KernelIdeal.Gen Idealize.ShloMosaic Idealize.ShloMosaic.TcCoe Idealize.SL.Sem
open Idealize.ShloMosaic.ValueIdx Cert.Perceptron

variable (m : (ℓ : Loc nD τ sig) → Buf (Elt Ideal) ℓ)

/-- The input tile and the first-weight tile the body sees at grid step `t`. -/
abbrev xTile (c : Dev nD) (t : Fin cfg0.N) : Vec Ideal S128x8192 .bf16 := iblk m c 0 t
abbrev wTile (c : Dev nD) (t : Fin cfg0.N) : Vec Ideal S512x8192 .bf16 := iblk m c 1 t

/-- The tile product of step `n` at an entry of the accumulator (zero for a number past the grid, never used). -/
def tileProduct (c : Dev nD) (n : ℕ) (j : S128x512.Idx) : EReal :=
  if h : n < cfg0.N then ∑ q : Fin 8192, xTile m c ⟨n, h⟩ (ix2 (j 0) q) * wTile m c ⟨n, h⟩ (ix2 (j 1) q) else 0

theorem tileProduct_of_lt (c : Dev nD) (n : ℕ) (h : n < cfg0.N) (r : Fin 128) (i : Fin 512) :
    tileProduct m c n (ix2 r i) = ∑ q : Fin 8192, xTile m c ⟨n, h⟩ (ix2 r q) * wTile m c ⟨n, h⟩ (ix2 i q) := by
  unfold tileProduct
  rw [dif_pos h]

/-- At the first step of a row tile the accumulator ends at zero plus that step's tile product, whatever it held. -/
theorem step_first (c : Dev nD) (n : ℕ) (h : n < cfg0.N) (h0 : n % 40 = 0) (acc : Vec Ideal S128x512 .f32)
    (j : S128x512.Idx) : Value.scAt0_0 m c n h acc j = 0 + tileProduct m c n j := by
  have hN : cfg0.N = 80 := N_0
  have h1 : ¬n % 40 = 39 := by omega
  obtain ⟨r, i, rfl⟩ : ∃ (r : Fin 128) (i : Fin 512), j = ix2 r i := ⟨j 0, j 1, eq_ix2 j⟩
  rw [tileProduct_of_lt m c n h]
  unfold Value.scAt0_0
  rw [dif_pos h0, dif_neg h1]
  refine (congrFun (BodyStores.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N))) (ix2 r i)).trans ?_
  refine (TileValue.accumulate_apply _ (xTile m c ⟨n, h⟩) (wTile m c ⟨n, h⟩) r i).trans ?_
  rw [TileValue.reset_apply]

/-- At every other step it gains that step's tile product. -/
theorem step_later (c : Dev nD) (n : ℕ) (h : n < cfg0.N) (h0 : ¬n % 40 = 0) (acc : Vec Ideal S128x512 .f32)
    (j : S128x512.Idx) : Value.scAt0_0 m c n h acc j = acc j + tileProduct m c n j := by
  obtain ⟨r, i, rfl⟩ : ∃ (r : Fin 128) (i : Fin 512), j = ix2 r i := ⟨j 0, j 1, eq_ix2 j⟩
  rw [tileProduct_of_lt m c n h]
  unfold Value.scAt0_0
  by_cases h1 : n % 40 = 39
  · rw [dif_neg h0, dif_pos h1]
    refine (congrFun (BodyStores.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) acc) (ix2 r i)).trans ?_
    exact TileValue.accumulate_apply acc (xTile m c ⟨n, h⟩) (wTile m c ⟨n, h⟩) r i
  · rw [dif_neg h0, dif_neg h1]
    refine (congrFun (BodyStores.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) acc) (ix2 r i)).trans ?_
    exact TileValue.accumulate_apply acc (xTile m c ⟨n, h⟩) (wTile m c ⟨n, h⟩) r i

/-- The accumulator after step `t`: zero plus the tile products of its row tile's steps up to `t`. -/
theorem scratch_eq (c : Dev nD) (t : Fin cfg0.N) (j : S128x512.Idx) :
    (outsAt0 m c t.val t.isLt).2 j
      = 0 + ∑ s ∈ Finset.range (t.val % 40 + 1), tileProduct m c (40 * (t.val / 40) + s) j := by
  rw [Value.soutsAt0_0_eq m c t]
  exact Pipeline.accAt_add_apply (β := EReal) _ _ (fun _ => 0) (tileProduct m c) (40 * (t.val / 40)) 39
    (fun h i => step_first m c _ h (by omega) _ i)
    (fun n h acc i hlo hhi => step_later m c n h (by omega) acc i)
    (t.val % 40) (by omega) _ j

end Cert.KernelIdeal.Accumulator

end
-- ==== Proof.KernelValue.lean ====
/-
  What the kernel's result array holds after the run: the network's logits of the arrays it is given.

  The grid visits, for each of the 2 row tiles, the 40 stretches of the contraction in order; step
  t = 40 · p + s works on rows 128 · p … 128 · p + 127 of the input and on positions
  8192 · s … 8192 · s + 8191 of the contraction, and sees the biases and the two small weight matrices
  whole. The output tile of row tile p is written back once, after its last step t = 40 · p + 39, when
  the accumulator holds the full contraction (the sum over the 40 stretches is the sum over all 327680
  positions) and the body has applied the rest of the network to it. The two output tiles cover the
  256 × 2 result.
-/
import proofs.«167763_j2130303779207_1_alg».proof.Proof.Accumulator

noncomputable section

open scoped BigOperators

namespace Cert.KernelIdeal.LogitsValue

open Cert.KernelIdeal Cert.KernelIdeal.Gen Idealize.ShloMosaic Idealize.ShloMosaic.TcCoe Idealize.SL.Sem
open Idealize.ShloMosaic.ValueIdx Cert.Perceptron
open Idealize.ShloMosaic.Pipeline (Dat)

variable (m : (ℓ : Loc nD τ sig) → Buf (Elt Ideal) ℓ) (ρ : Dev nD → PrngReg)

/-- The arrays the kernel region is given, as it finds them. -/
abbrev xArr (c : Dev nD) : Vec Ideal S256x327680 .bf16 := V m c main_v13
abbrev w1Arr (c : Dev nD) : Vec Ideal S512x327680 .bf16 := V m c main_v14
abbrev b1Arr (c : Dev nD) : Vec Ideal S512 .f32 := V m c main_arg4
abbrev w2Arr (c : Dev nD) : Vec Ideal S512x512 .bf16 := V m c main_v15
abbrev b2Arr (c : Dev nD) : Vec Ideal S512 .f32 := V m c main_arg6
abbrev wpArr (c : Dev nD) : Vec Ideal S2x512 .bf16 := V m c main_v16
abbrev bpArr (c : Dev nD) : Vec Ideal S2 .f32 := V m c main_arg8

/-- The kernel's result: the logits of those arrays. -/
def result (c : Dev nD) : Vec Ideal S256x2 .f32 :=
  logits (xArr m c) (w1Arr m c) (b1Arr m c) (w2Arr m c) (b2Arr m c) (wpArr m c) (bpArr m c)

theorem lt80 (t : Fin cfg0.N) : t.val < 80 := lt_of_lt_of_eq t.isLt N_0

/-- Which block of each array a grid step sees, decided over the 80 steps. -/
theorem idx_facts : ∀ t : Fin cfg0.N,
    win0_0.index t (0 : Fin 2) = t.val / 40 ∧ win0_0.index t (1 : Fin 2) = t.val % 40
    ∧ win0_1.index t (0 : Fin 2) = 0 ∧ win0_1.index t (1 : Fin 2) = t.val % 40
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val / 40 ∧ win0_7.index t (1 : Fin 2) = 0 :=
  (by decide +kernel : ∀ t : Fin grid0.N, _)

/-- Row `r` of the row tile of step `t`, and position `q` of its stretch, in the whole arrays. -/
abbrev rowOf (t : Fin cfg0.N) (r : Fin 128) : Fin 256 := ⟨128 * (t.val / 40) + r.val, by have := lt80 t; omega⟩
abbrev posOf (t : Fin cfg0.N) (q : Fin 8192) : Fin 327680 := ⟨8192 * (t.val % 40) + q.val, by omega⟩

/-- The input tile of a step is the input at its row tile's rows and its stretch's positions. -/
theorem xTile_apply (c : Dev nD) (t : Fin cfg0.N) (r : Fin 128) (q : Fin 8192) :
    Accumulator.xTile m c t (ix2 r q) = xArr m c (ix2 (rowOf t r) (posOf t q)) := by
  obtain ⟨e0, e1, -⟩ := idx_facts t
  unfold Accumulator.xTile iblk
  rw [View.read_apply]
  show V m c main_v13 _ = V m c main_v13 _
  congr 1
  funext a
  apply Fin.ext
  match a with
  | ⟨0, _⟩ => show win0_0.index t 0 * 128 + 1 * r.val = 128 * (t.val / 40) + r.val; rw [e0]; omega
  | ⟨1, _⟩ => show win0_0.index t 1 * 8192 + 1 * q.val = 8192 * (t.val % 40) + q.val; rw [e1]; omega

/-- The first-weight tile of a step is all 512 rows at its stretch's positions. -/
theorem wTile_apply (c : Dev nD) (t : Fin cfg0.N) (i : Fin 512) (q : Fin 8192) :
    Accumulator.wTile m c t (ix2 i q) = w1Arr m c (ix2 i (posOf t q)) := by
  obtain ⟨-, -, e0, e1, -⟩ := idx_facts t
  unfold Accumulator.wTile iblk
  rw [View.read_apply]
  show V m c main_v14 _ = V m c main_v14 _
  congr 1
  funext a
  apply Fin.ext
  match a with
  | ⟨0, _⟩ => show win0_1.index t 0 * 512 + 1 * i.val = i.val; rw [e0]; omega
  | ⟨1, _⟩ => show win0_1.index t 1 * 8192 + 1 * q.val = 8192 * (t.val % 40) + q.val; rw [e1]; omega

/-- The biases and the two small weight matrices are seen whole at every step. -/
theorem b1Tile_eq (c : Dev nD) (t : Fin cfg0.N) : (iblk m c 2 t : Vec Ideal S512 .f32) = b1Arr m c := by
  obtain ⟨e00, e01, e10, e11, e2, e30, e31, e4, e50, e51, e6, e70, e71⟩ := idx_facts t
  funext y
  unfold iblk
  rw [View.read_apply]
  show V m c main_arg4 _ = V m c main_arg4 y
  congr 1
  funext a
  apply Fin.ext
  match a with
  | ⟨0, _⟩ => show win0_2.index t 0 * 512 + 1 * (y 0).val = (y 0).val; rw [e2]; omega
theorem w2Tile_eq (c : Dev nD) (t : Fin cfg0.N) : (iblk m c 3 t : Vec Ideal S512x512 .bf16) = w2Arr m c := by
  obtain ⟨e00, e01, e10, e11, e2, e30, e31, e4, e50, e51, e6, e70, e71⟩ := idx_facts t
  funext y
  unfold iblk
  rw [View.read_apply]
  show V m c main_v15 _ = V m c main_v15 y
  congr 1
  funext a
  apply Fin.ext
  match a with
  | ⟨0, _⟩ => show win0_3.index t 0 * 512 + 1 * (y 0).val = (y 0).val; rw [e30]; omega
  | ⟨1, _⟩ => show win0_3.index t 1 * 512 + 1 * (y 1).val = (y 1).val; rw [e31]; omega
theorem b2Tile_eq (c : Dev nD) (t : Fin cfg0.N) : (iblk m c 4 t : Vec Ideal S512 .f32) = b2Arr m c := by
  obtain ⟨e00, e01, e10, e11, e2, e30, e31, e4, e50, e51, e6, e70, e71⟩ := idx_facts t
  funext y
  unfold iblk
  rw [View.read_apply]
  show V m c main_arg6 _ = V m c main_arg6 y
  congr 1
  funext a
  apply Fin.ext
  match a with
  | ⟨0, _⟩ => show win0_4.index t 0 * 512 + 1 * (y 0).val = (y 0).val; rw [e4]; omega
theorem wpTile_eq (c : Dev nD) (t : Fin cfg0.N) : (iblk m c 5 t : Vec Ideal S2x512 .bf16) = wpArr m c := by
  obtain ⟨e00, e01, e10, e11, e2, e30, e31, e4, e50, e51, e6, e70, e71⟩ := idx_facts t
  funext y
  unfold iblk
  rw [View.read_apply]
  show V m c main_v16 _ = V m c main_v16 y
  congr 1
  funext a
  apply Fin.ext
  match a with
  | ⟨0, _⟩ => show win0_5.index t 0 * 2 + 1 * (y 0).val = (y 0).val; rw [e50]; omega
  | ⟨1, _⟩ => show win0_5.index t 1 * 512 + 1 * (y 1).val = (y 1).val; rw [e51]; omega
theorem bpTile_eq (c : Dev nD) (t : Fin cfg0.N) : (iblk m c 6 t : Vec Ideal S2 .f32) = bpArr m c := by
  obtain ⟨e00, e01, e10, e11, e2, e30, e31, e4, e50, e51, e6, e70, e71⟩ := idx_facts t
  funext y
  unfold iblk
  rw [View.read_apply]
  show V m c main_arg8 _ = V m c main_arg8 y
  congr 1
  funext a
  apply Fin.ext
  match a with
  | ⟨0, _⟩ => show win0_6.index t 0 * 2 + 1 * (y 0).val = (y 0).val; rw [e6]; omega

/-- After the last step of a row tile the accumulator holds, at (r, i), the full contraction of the tile's
    row `r` of the input against row `i` of the first weights: the 40 stretch sums are the whole sum. -/
theorem finished_apply (c : Dev nD) (t : Fin cfg0.N) (h1 : t.val % 40 = 39) (r : Fin 128) (i : Fin 512) :
    (outsAt0 m c t.val t.isLt).2 (ix2 r i) = ∑ k : Fin 327680, xArr m c (ix2 (rowOf t r) k) * w1Arr m c (ix2 i k) := by
  have hN := lt80 t
  rw [Accumulator.scratch_eq m c t (ix2 r i), zero_add, h1, Finset.sum_range, sum_stretches]
  refine Finset.sum_congr rfl fun s _ => ?_
  have hs : 40 * (t.val / 40) + s.val < cfg0.N := by
    have hc : cfg0.N = 80 := N_0
    have := s.isLt
    omega
  rw [Accumulator.tileProduct_of_lt m c _ hs r i]
  refine Finset.sum_congr rfl fun q _ => ?_
  rw [xTile_apply, wTile_apply]
  have er : rowOf ⟨40 * (t.val / 40) + s.val, hs⟩ r = rowOf t r := Fin.ext (by
    show 128 * ((40 * (t.val / 40) + s.val) / 40) + r.val = 128 * (t.val / 40) + r.val
    have := s.isLt
    omega)
  have ep : posOf ⟨40 * (t.val / 40) + s.val, hs⟩ q = at8192 s q := Fin.ext (by
    show 8192 * ((40 * (t.val / 40) + s.val) % 40) + q.val = 8192 * s.val + q.val
    have := s.isLt
    omega)
  rw [er, ep]

/-- The last step's stored value, at an entry of a tile whose accumulator row is the full contraction of row `row`
    of the input, is the network's logit of that row. -/
theorem finish_is_logits (acc : Vec Ideal S128x512 .f32) (x : Vec Ideal S256x327680 .bf16) (w1 : Vec Ideal S512x327680 .bf16)
    (b1 : Vec Ideal S512 .f32) (w2 : Vec Ideal S512x512 .bf16) (b2 : Vec Ideal S512 .f32) (wp : Vec Ideal S2x512 .bf16)
    (bp : Vec Ideal S2 .f32) (row : Fin 256) (j : S128x2.Idx)
    (hacc : ∀ i : Fin 512, acc (ix2 (j 0) i) = ∑ k : Fin 327680, x (ix2 row k) * w1 (ix2 i k)) :
    k0_pay3 (F := Ideal) acc b1 w2 b2 wp bp j = logits x w1 b1 w2 b2 wp bp (ix2 row (j 1)) := by
  obtain ⟨r, c', rfl⟩ : ∃ (r : Fin 128) (c' : Fin 2), j = ix2 r c' := ⟨j 0, j 1, eq_ix2 j⟩
  rw [TileValue.finish_apply]
  exact congrArg (fun s => tail s b1 w2 b2 wp bp c') (funext hacc)

/-- At the last step the accumulator the tail reads is the one the step leaves. -/
theorem lastStep_scratch (c : Dev nD) (t : Fin cfg0.N) (h0 : ¬t.val % 40 = 0) (h1 : t.val % 40 = 39) :
    k0_pay2 (F := Ideal) (outsAt0 m c (t.val - 1) (Nat.lt_of_le_of_lt (Nat.sub_le _ _) t.isLt)).2
        (Accumulator.xTile m c t) (Accumulator.wTile m c t)
      = (outsAt0 m c t.val t.isLt).2 := by
  rw [outsAt0_C m c t h0 h1]
  dsimp only
  exact (BodyStores.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _).symm

/-- What a write-back writes is its block of the logits. -/
theorem flushed_eq (c : Dev nD) (t : Fin cfg0.N) (hf : (cfg0.win 7).flush t = true) :
    (dats m 0 c).flushed 7 t = ((cfg0.win 7).blk t).view.read (Elt Ideal) (result m c) := by
  have h1 : t.val % 40 = 39 := (flush0_7 t).mp hf
  have h0 : ¬t.val % 40 = 0 := by omega
  obtain ⟨e00, e01, e10, e11, e2, e30, e31, e4, e50, e51, e6, e70, e71⟩ := idx_facts t
  rw [Value.flushed7_C m c t h0 h1]
  funext y
  rw [View.read_apply]
  have hemb : ((cfg0.win 7).blk t).view.emb y = ix2 (rowOf t (y 0)) (y 1) := funext fun a => Fin.ext (by
    match a with
    | ⟨0, _⟩ => show win0_7.index t 0 * 128 + 1 * (y 0).val = 128 * (t.val / 40) + (y 0).val; rw [e70]; omega
    | ⟨1, _⟩ => show win0_7.index t 1 * 2 + 1 * (y 1).val = (y 1).val; rw [e71]; omega)
  rw [hemb]
  refine Eq.trans ?_ (finish_is_logits (outsAt0 m c t.val t.isLt).2 (xArr m c) (w1Arr m c) (b1Arr m c) (w2Arr m c)
    (b2Arr m c) (wpArr m c) (bpArr m c) (rowOf t (y 0)) y (fun i => finished_apply m c t h1 (y 0) i))
  refine (congrFun (BodyStores.output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) y).trans ?_
  rw [lastStep_scratch m c t h0 h1, b1Tile_eq m c t, w2Tile_eq m c t, b2Tile_eq m c t, wpTile_eq m c t, bpTile_eq m c t]

/-- An entry of the result lies in a step's output tile iff each coordinate is in the tile's range. -/
theorem mem_tile (t : Fin cfg0.N) (i : S256x2.Idx) :
    i ∈ ((cfg0.win 7).blk t).view.set
      ↔ ∀ a : Fin 2, win0_7.index t a * S128x2.size a ≤ (i a).val ∧ (i a).val < win0_7.index t a * S128x2.size a + S128x2.size a := by
  show i ∈ ((View.whole main_v17).slice (win0_7.rect t)).set ↔ _
  rw [View.set_slice_whole, Rect.mem_set_unit]
  exact Iff.rfl

/-- Every entry of the result is written back: row `ρ` by the last step of row tile ⌊ρ / 128⌋. -/
theorem covered (i : S256x2.Idx) :
    ∃ t : Fin cfg0.N, (cfg0.win 7).flush t = true ∧ i ∈ ((cfg0.win 7).blk t).view.set := by
  have hi0 : (i 0).val < 256 := (i 0).isLt
  have hi1 : (i 1).val < 2 := (i 1).isLt
  have hb : 40 * ((i 0).val / 128) + 39 < cfg0.N := by
    have hc : cfg0.N = 80 := N_0
    omega
  obtain ⟨e00, e01, e10, e11, e2, e30, e31, e4, e50, e51, e6, e70, e71⟩ := idx_facts ⟨40 * ((i 0).val / 128) + 39, hb⟩
  refine ⟨⟨40 * ((i 0).val / 128) + 39, hb⟩, (flush0_7 _).mpr (by show (40 * ((i 0).val / 128) + 39) % 40 = 39; omega), ?_⟩
  rw [mem_tile]
  intro a
  match a with
  | ⟨0, _⟩ =>
    show win0_7.index ⟨40 * ((i 0).val / 128) + 39, hb⟩ 0 * 128 ≤ (i 0).val
      ∧ (i 0).val < win0_7.index ⟨40 * ((i 0).val / 128) + 39, hb⟩ 0 * 128 + 128
    rw [e70]
    show (40 * ((i 0).val / 128) + 39) / 40 * 128 ≤ (i 0).val ∧ (i 0).val < (40 * ((i 0).val / 128) + 39) / 40 * 128 + 128
    omega
  | ⟨1, _⟩ =>
    show win0_7.index ⟨40 * ((i 0).val / 128) + 39, hb⟩ 1 * 2 ≤ (i 1).val
      ∧ (i 1).val < win0_7.index ⟨40 * ((i 0).val / 128) + 39, hb⟩ 1 * 2 + 2
    rw [e71]
    omega

/-- The result array after the run holds the logits. -/
theorem final (c : Dev nD) : (dats m 0 c).arrAt 7 cfg0.N = result m c :=
  (dats m 0 c).arrAt_eq_of_cover 7 (result m c) (fun t hf => flushed_eq m c t hf) covered

/-- The kernel's run: it ends with the logits in its result array and its arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.LogitsValue

end
-- ==== Proof.ReferenceValue.lean ====
/-
  The reference program computes the specification.

  Its last stage, read one entry at a time, is: a product of the clamped second layer with the head's
  weights plus the head's bias; the second layer a product of the clamped first layer with the second
  weights plus its bias; the first layer the product of the flattened embedding matrix with the first
  weights plus its bias. Each weight matrix is transposed before its product, so the entry (k, i) read
  there is the entry (i, k) of the stored matrix; each bias is broadcast along the rows. The flattened
  embedding matrix (a gather, a mask and a reshape of the integer inputs) is kept as one unopened term.
-/
import proofs.«167763_j2130303779207_1_alg».proof.Proof.Gen.ReferenceIdeal.Read
import proofs.«167763_j2130303779207_1_alg».proof.Proof.Perceptron

noncomputable section

open scoped BigOperators

namespace Cert.ReferenceIdeal.LogitsValue

open Cert.ReferenceIdeal Cert.ReferenceIdeal.Gen Cert.ReferenceIdeal.Read Idealize.ShloMosaic
open Idealize.ShloMosaic.ValueIdx Cert.Perceptron

/-- The reference's result is the network's logits of its flattened embedding matrix and the weights. -/
theorem result_eq (x0 x1 : (⟨S256x512, .i32⟩ : BufTy).Contents (Elt Ideal)) (x2 : (⟨S50000x640, .f32⟩ : BufTy).Contents (Elt Ideal)) (x3 : (⟨S512x327680, .f32⟩ : BufTy).Contents (Elt Ideal))
    (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S2x512, .f32⟩ : BufTy).Contents (Elt Ideal))
    (x8 : (⟨S2, .f32⟩ : BufTy).Contents (Elt Ideal)) :
    val_main_v29 (F := Ideal) x0 x1 x2 x3 x4 x5 x6 x7 x8
      = logits (val_main_v12 (F := Ideal) x0 x1 x2) x3 x4 x5 x6 x7 x8 := by
  funext o
  obtain ⟨r, c, rfl⟩ : ∃ (r : Fin 256) (c : Fin 2), o = ix2 r c := ⟨o 0, o 1, eq_ix2 o⟩
  have e26l : ∀ k : Fin 512, lidx_main_v26 (ix2 r c) k = ix2 r k := fun k =>
    funext fun a => Fin.ext (by match a with | ⟨0, _⟩ => rfl | ⟨1, _⟩ => rfl)
  have e25 : ∀ k : Fin 512, idx_main_v25 (ridx_main_v26 (ix2 r c) k) = ix2 c k := fun k =>
    funext fun a => Fin.ext (by match a with | ⟨0, _⟩ => rfl | ⟨1, _⟩ => rfl)
  have e28 : idx_main_v27 (idx_main_v28 (ix2 r c)) = ix1 c :=
    funext fun a => Fin.ext (by match a with | ⟨0, _⟩ => rfl)
  have e20l : ∀ j k : Fin 512, lidx_main_v20 (ix2 r j) k = ix2 r k := fun j k =>
    funext fun a => Fin.ext (by match a with | ⟨0, _⟩ => rfl | ⟨1, _⟩ => rfl)
  have e19 : ∀ j k : Fin 512, idx_main_v19 (ridx_main_v20 (ix2 r j) k) = ix2 j k := fun j k =>
    funext fun a => Fin.ext (by match a with | ⟨0, _⟩ => rfl | ⟨1, _⟩ => rfl)
  have e22 : ∀ j : Fin 512, idx_main_v21 (idx_main_v22 (ix2 r j)) = ix1 j := fun j =>
    funext fun a => Fin.ext (by match a with | ⟨0, _⟩ => rfl)
  have e14l : ∀ (i : Fin 512) (k : Fin 327680), lidx_main_v14 (ix2 r i) k = ix2 r k := fun i k =>
    funext fun a => Fin.ext (by match a with | ⟨0, _⟩ => rfl | ⟨1, _⟩ => rfl)
  have e13 : ∀ (i : Fin 512) (k : Fin 327680), idx_main_v13 (ridx_main_v14 (ix2 r i) k) = ix2 i k := fun i k =>
    funext fun a => Fin.ext (by match a with | ⟨0, _⟩ => rfl | ⟨1, _⟩ => rfl)
  have e16 : ∀ i : Fin 512, idx_main_v15 (idx_main_v16 (ix2 r i)) = ix1 i := fun i =>
    funext fun a => Fin.ext (by match a with | ⟨0, _⟩ => rfl)
  simp only [val_main_v29_apply, val_main_v26_apply, e26l, val_main_v24_apply, val_main_v23_apply, val_main_v20_apply,
    e20l, val_main_v18_apply, val_main_v17_apply, val_main_v14_apply, e14l, val_main_v13_apply, e13, val_main_v16_apply,
    val_main_v15_apply, e16, val_main_v19_apply, e19, val_main_v22_apply, val_main_v21_apply, e22, val_main_v25_apply,
    e25, val_main_v28_apply, val_main_v27_apply, e28, val_main_call0_v0_apply, val_main_call0_cst_apply,
    val_main_call1_v0_apply, val_main_call1_cst_apply]
  rfl

end Cert.ReferenceIdeal.LogitsValue

end
-- ==== Proof.Operands.lean ====
/-
  The arrays the kernel region is given, as functions of the program's arguments.

  Before the region the kernel's program computes, from the two integer inputs and the embedding table,
  the same flattened embedding matrix the reference computes (the same gather, mask and reshape, spelt with
  the same operations), and then only changes the float format of it and of the three weight matrices,
  which is the identity on the extended reals; the biases are passed as they are. So the kernel's result,
  the logits of what the region is given, is the logits of that matrix and of the weights themselves.
-/
import proofs.«167763_j2130303779207_1_alg».proof.Proof.KernelValue
import proofs.«167763_j2130303779207_1_alg».proof.Proof.ReferenceValue
import Idealize.ShloMosaic.Lib.StableHlo.Run

noncomputable section

namespace Cert.Proof.Operands

open Idealize.ShloMosaic Idealize.ShloMosaic.TcCoe Idealize.SL.Sem Idealize.ShloMosaic.StableHlo
open Cert.KernelIdeal.LogitsValue Cert.Perceptron

variable (m : (ℓ : Loc Cert.KernelIdeal.nD Cert.KernelIdeal.τ Cert.KernelIdeal.sig) → Buf (Elt Ideal) ℓ)

/-- The input the region is given is the flattened embedding matrix of the integer inputs and the table. -/
theorem xArr_eq (c : Dev Cert.KernelIdeal.nD) :
    xArr m c = Cert.ReferenceIdeal.Read.val_main_v12 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
  show (Cert.KernelIdeal.Gen.V m c Cert.KernelIdeal.main_v13 : Cert.KernelIdeal.S256x327680.Idx → EReal) = _
  dsimp only [Cert.KernelIdeal.Gen.V, Cert.KernelIdeal.Gen.hostOps0]
  after_results
  rfl

/-- The three weight matrices the region is given are the arguments themselves. -/
theorem w1Arr_eq (c : Dev Cert.KernelIdeal.nD) : w1Arr m c = (m ((c : Thread Cert.KernelIdeal.nD Cert.KernelIdeal.τ).loc Cert.KernelIdeal.main_arg3)) := by
  show (Cert.KernelIdeal.Gen.V m c Cert.KernelIdeal.main_v14 : Cert.KernelIdeal.S512x327680.Idx → EReal) = _
  dsimp only [Cert.KernelIdeal.Gen.V, Cert.KernelIdeal.Gen.hostOps0]
  after_results
  rfl
theorem w2Arr_eq (c : Dev Cert.KernelIdeal.nD) : w2Arr m c = (m ((c : Thread Cert.KernelIdeal.nD Cert.KernelIdeal.τ).loc Cert.KernelIdeal.main_arg5)) := by
  show (Cert.KernelIdeal.Gen.V m c Cert.KernelIdeal.main_v15 : Cert.KernelIdeal.S512x512.Idx → EReal) = _
  dsimp only [Cert.KernelIdeal.Gen.V, Cert.KernelIdeal.Gen.hostOps0]
  after_results
  rfl
theorem wpArr_eq (c : Dev Cert.KernelIdeal.nD) : wpArr m c = (m ((c : Thread Cert.KernelIdeal.nD Cert.KernelIdeal.τ).loc Cert.KernelIdeal.main_arg7)) := by
  show (Cert.KernelIdeal.Gen.V m c Cert.KernelIdeal.main_v16 : Cert.KernelIdeal.S2x512.Idx → EReal) = _
  dsimp only [Cert.KernelIdeal.Gen.V, Cert.KernelIdeal.Gen.hostOps0]
  after_results
  rfl

/-- The kernel's result as a function of the program's arguments. -/
theorem result_eq (c : Dev Cert.KernelIdeal.nD) :
    result m c = logits (Cert.ReferenceIdeal.Read.val_main_v12 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
      (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold result
  rw [xArr_eq m c, w1Arr_eq m c, w2Arr_eq m c, wpArr_eq m c]
  show logits _ _ (Cert.KernelIdeal.Gen.V m c Cert.KernelIdeal.main_arg4) _ (Cert.KernelIdeal.Gen.V m c Cert.KernelIdeal.main_arg6) _ (Cert.KernelIdeal.Gen.V m c Cert.KernelIdeal.main_arg8) = _
  rw [Cert.KernelIdeal.Gen.V_main_arg4 m c, Cert.KernelIdeal.Gen.V_main_arg6 m c, Cert.KernelIdeal.Gen.V_main_arg8 m c]

end Cert.Proof.Operands

end
-- ==== Proof.lean ====
/-
  A three-layer perceptron over token embeddings: the kernel and the reference compute the same logits.

  Both programs first build, from the token ids, the mask and the embedding table, the same 256 × 327680
  matrix `x` (each row the 512 masked embedding vectors of one sequence, laid end to end). The reference then
  computes, for every row, max (x · W1ᵀ + b1) 0, then max (· W2ᵀ + b2) 0, then · Wpᵀ + bp, each as one
  whole-matrix product. The kernel splits the 256 rows into two tiles and the 327680-long contraction of
  the first layer into 40 stretches of 8192; it adds each stretch's partial product into an accumulator
  that starts at zero, and after the last stretch applies the bias, the clamp and the two small layers to
  the accumulator and writes the 128 × 2 tile of logits back. Over the extended reals a change of float
  format is the identity, a matrix-unit product into a zero accumulator is the plain sum of products, and
  addition is commutative and associative, so the sum of the 40 stretch sums is the sum over all 327680
  positions: the kernel's tiles are the reference's logits, row by row. No finiteness of the inputs is
  needed, since no step cancels or distributes.

  The modules: Perceptron (the function, and the stretch-sum law), LibMatmulPlain (a plain matrix product
  at an entry), TilePayloads (the body's three stored values at an entry), BodyStores (what each case of
  the body leaves in its buffers), Accumulator (the accumulator after any step), KernelValue (the result
  array after the run), ReferenceValue (the reference is the function), Operands (what the kernel region
  is given, from the arguments). The three frames are the generated ones; the idealization rewrote
  nothing.
-/
import proofs.«167763_j2130303779207_1_alg».proof.Defs
import proofs.«167763_j2130303779207_1_alg».proof.Proof.Gen.Kernel
import proofs.«167763_j2130303779207_1_alg».proof.Proof.Gen.Kernel.Frame
import proofs.«167763_j2130303779207_1_alg».proof.Proof.Gen.KernelIdeal
import proofs.«167763_j2130303779207_1_alg».proof.Proof.Gen.KernelIdeal.Frame
import proofs.«167763_j2130303779207_1_alg».proof.Proof.Gen.KernelIdeal.Value
import proofs.«167763_j2130303779207_1_alg».proof.Proof.Gen.ReferenceIdeal
import proofs.«167763_j2130303779207_1_alg».proof.Proof.Gen.ReferenceIdeal.Run
import proofs.«167763_j2130303779207_1_alg».proof.Proof.Gen.ReferenceIdeal.Read
import proofs.«167763_j2130303779207_1_alg».proof.Proof.Gen.Pre_finite_inputs
import proofs.«167763_j2130303779207_1_alg».proof.Proof.Operands
import Idealize.ShloMosaic.Adequacy
import Idealize.ShloMosaic.Init

noncomputable section

namespace Cert.Proof

open Idealize.ShloMosaic Idealize.SL.Sem

namespace Claims

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's logits of the same matrix and the same weights. -/
theorem algebraic : Cert.algebraic_KernelIdeal_ReferenceIdeal := by
  intro m ρ m' ρ' _ hagree
  refine ⟨fun c => Cert.KernelIdeal.LogitsValue.result m c, Cert.KernelIdeal.LogitsValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v29_eq, Cert.ReferenceIdeal.LogitsValue.result_eq, a0, a1, a2, a3, a4, a5,
    a6, a7, a8]
  exact (Operands.result_eq m c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
